-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_63" .f32 0x3C820821#32 ((1 / 63 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S8192x64x128 : S_.BroadcastsInDim S8192x64x128 (![] : Fin 0 → Fin S8192x64x128.rank)
  reducesTo_S8192x64x128_S_d0_1_2 : S8192x64x128.ReducesTo [0, 1, 2] S_
  h_S_ : 0 < S_.numel
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S128 .f32) (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8192x64x128 .f32) (main_arg1 : FVec F S128 .f32) (main_arg2 : FVec F S128 .f32) (main_arg3 : FVec F S128 .f32) (main_arg4 : FVec F S128 .f32) (main_arg5 : FVec F S128x16 .f32) (main_arg6 : FVec F S16 .f32) : IVec S_ 1 :=
  let main_v0 : FVec F S8192x64x128 .f32 := Host.absf main_arg0
  let main_cst : FVec F S_ .f32 := constant S_ .f32 0x7F800000#32
  let main_v1 : FVec F S8192x64x128 .f32 := broadcastInDim S8192x64x128 ![] bcast_S_S8192x64x128 main_cst
  let main_v2 : IVec S8192x64x128 1 := cmpf .olt main_v0 main_v1
  let main_c : IVec S_ 1 := constantI S_ 1 1#1
  let main_v3 : IVec S_ 1 := (fun x v => Host.reduce IntOp.andi x v reducesTo_S8192x64x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x64x128 : Shape := ⟨3, ![8192, 64, 128]⟩
abbrev S128 : Shape := ⟨1, ![128]⟩
abbrev S128x16 : Shape := ⟨2, ![128, 16]⟩
abbrev S16 : Shape := ⟨1, ![16]⟩
abbrev S_ : Shape := ⟨0, ![]⟩
abbrev S256x32 : Shape := ⟨2, ![256, 32]⟩
abbrev S1 : Shape := ⟨1, ![1]⟩
abbrev S2 : Shape := ⟨1, ![2]⟩
abbrev S8192x1024 : Shape := ⟨2, ![8192, 1024]⟩
abbrev S128x64x128 : Shape := ⟨3, ![128, 64, 128]⟩
abbrev S128x1024 : Shape := ⟨2, ![128, 1024]⟩
abbrev S1x1x128 : Shape := ⟨3, ![1, 1, 128]⟩
abbrev S128x128 : Shape := ⟨2, ![128, 128]⟩
abbrev S128x1x128 : Shape := ⟨3, ![128, 1, 128]⟩
abbrev S128x32x128 : Shape := ⟨3, ![128, 32, 128]⟩
abbrev S128x32x256 : Shape := ⟨3, ![128, 32, 256]⟩
abbrev S4096x256 : Shape := ⟨2, ![4096, 256]⟩
abbrev S4096x32 : Shape := ⟨2, ![4096, 32]⟩
abbrev S128x32x32 : Shape := ⟨3, ![128, 32, 32]⟩
abbrev S128x32x16 : Shape := ⟨3, ![128, 32, 16]⟩
abbrev S1x1x16 : Shape := ⟨3, ![1, 1, 16]⟩
abbrev S128x64x16 : Shape := ⟨3, ![128, 64, 16]⟩
abbrev S8192x64x16 : Shape := ⟨3, ![8192, 64, 16]⟩

abbrev nBuf : Space → Nat
  | .hbm => 23
  | .vmem => 9
  | .smem => 0
  | _ => 0

abbrev bufTy : (tb : Table) → Fin (tcTables nBuf tb) → BufTy
  | .hbm, ⟨0, _⟩ => ⟨S8192x64x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S_, .f32⟩
  | .hbm, ⟨8, _⟩ => ⟨S256x32, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S256x32, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x32, .f32⟩
  | .hbm, ⟨21, _⟩ => ⟨S8192x1024, .f32⟩
  | .hbm, ⟨22, _⟩ => ⟨S8192x64x16, .f32⟩
  | .local _ .vmem, ⟨0, _⟩ => ⟨S128x64x128, .f32⟩
  | .local _ .vmem, ⟨1, _⟩ => ⟨S128x64x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S256x32, .f32⟩
  | .local _ .vmem, ⟨6, _⟩ => ⟨S16, .f32⟩
  | .local _ .vmem, ⟨7, _⟩ => ⟨S128x1024, .f32⟩
  | .local _ .vmem, ⟨8, _⟩ => ⟨S128x1024, .f32⟩
  | _, _ => ⟨S8192x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S256x32 : S_.BroadcastsInDim S256x32 (![] : Fin 0 → Fin S256x32.rank)
  bcast_S_S1 : S_.BroadcastsInDim S1 (![] : Fin 0 → Fin S1.rank)
  concatenates_S1_S1_S2_d0 : Shape.Concatenates [S1, S1] S2 0
  inb_S128x64x128_S128x64x128_0_0_0 : ∀ a, (![0, 0, 0] : Fin 3 → Nat) a + S128x64x128.size a ≤ S128x64x128.size a
  h_S128x64x128 : 0 < S128x64x128.numel
  inb_S128_S128_0 : ∀ a, (![0] : Fin 1 → Nat) a + S128.size a ≤ S128.size a
  h_S128 : 0 < S128.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S16_S16_0 : ∀ a, (![0] : Fin 1 → Nat) a + S16.size a ≤ S16.size a
  h_S16 : 0 < S16.numel
  shapeCasts_S128_S1x1x128 : S128.ShapeCasts S1x1x128
  broadcasts_S1x1x128_S128x64x128 : S1x1x128.Broadcasts S128x64x128
  reduces_S128x64x128_S128x128 : S128x64x128.Reduces [1] S128x128
  shapeCasts_S128x128_S128x1x128 : S128x128.ShapeCasts S128x1x128
  broadcasts_S128x1x128_S128x64x128 : S128x1x128.Broadcasts S128x64x128
  bitsLt_bf16_f32 : FTy.bits .bf16 < FTy.bits .f32
  slices_S128x64x128_o0_0_0_S128x32x128 : S128x64x128.Slices ![0, 0, 0] S128x32x128
  slices_S128x64x128_o0_32_0_S128x32x128 : S128x64x128.Slices ![0, 32, 0] S128x32x128
  concatenates_S128x32x128_S128x32x128_S128x32x256_d2 : Shape.Concatenates [S128x32x128, S128x32x128] S128x32x256 2
  shapeCasts_S128x32x256_S4096x256 : S128x32x256.ShapeCasts S4096x256
  shapeCasts_S4096x32_S128x32x32 : S4096x32.ShapeCasts S128x32x32
  slices_S128x32x32_o0_0_0_S128x32x16 : S128x32x32.Slices ![0, 0, 0] S128x32x16
  shapeCasts_S16_S1x1x16 : S16.ShapeCasts S1x1x16
  broadcasts_S1x1x16_S128x32x16 : S1x1x16.Broadcasts S128x32x16
  slices_S128x32x32_o0_0_16_S128x32x16 : S128x32x32.Slices ![0, 0, 16] S128x32x16
  concatenates_S128x32x16_S128x32x16_S128x64x16_d1 : Shape.Concatenates [S128x32x16, S128x32x16] S128x64x16 1
  shapeCasts_S128x64x16_S128x1024 : S128x64x16.ShapeCasts S128x1024
  inb_S128x1024_S128x1024_0_0 : ∀ a, (![0, 0] : Fin 2 → Nat) a + S128x1024.size a ≤ S128x1024.size a
  h_S128x1024 : 0 < S128x1024.numel
  shapeCasts_S8192x1024_S8192x64x16 : S8192x1024.ShapeCasts S8192x64x16
  scatter_S256x32_S2_S128x16_01_n_01_0_wf : ScatterDims.WF S256x32 S2 S128x16 [0, 1] [] [0, 1] 0
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .f32 = 32 ∨ (Rect.block (s := S8192x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)

variable [Facts₀]

def scatter_S256x32_S2_S128x16_01_n_01_0 : ScatterDims S256x32 S2 S128x16 where
  updateWindowDims := [0, 1]
  insertedWindowDims := []
  scatterDimsToOperandDims := [0, 1]
  indexVectorDim := 0
  wf := scatter_S256x32_S2_S128x16_01_n_01_0_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S128 : Shape := ⟨1, ![128]⟩
abbrev S128x16 : Shape := ⟨2, ![128, 16]⟩
abbrev S16 : Shape := ⟨1, ![16]⟩
abbrev S1x1x128 : Shape := ⟨3, ![1, 1, 128]⟩
abbrev S_ : Shape := ⟨0, ![]⟩
abbrev S8192x128 : Shape := ⟨2, ![8192, 128]⟩
abbrev S8192x1x128 : Shape := ⟨3, ![8192, 1, 128]⟩
abbrev S8192x64x16 : Shape := ⟨3, ![8192, 64, 16]⟩
abbrev S1x1x16 : Shape := ⟨3, ![1, 1, 16]⟩

abbrev nBuf : Space → Nat
  | .hbm => 32
  | .vmem => 0
  | .smem => 0
  | _ => 0

abbrev bufTy : (tb : Table) → Fin (tcTables nBuf tb) → BufTy
  | .hbm, ⟨0, _⟩ => ⟨S8192x64x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1x1x128, .f32⟩
  | .hbm, ⟨8, _⟩ => ⟨S8192x64x128, .f32⟩
  | .hbm, ⟨9, _⟩ => ⟨S8192x64x128, .f32⟩
  | .hbm, ⟨10, _⟩ => ⟨S8192x64x128, .f32⟩
  | .hbm, ⟨11, _⟩ => ⟨S_, .f32⟩
  | .hbm, ⟨12, _⟩ => ⟨S8192x128, .f32⟩
  | .hbm, ⟨13, _⟩ => ⟨S8192x1x128, .f32⟩
  | .hbm, ⟨14, _⟩ => ⟨S8192x64x128, .f32⟩
  | .hbm, ⟨15, _⟩ => ⟨S8192x64x128, .f32⟩
  | .hbm, ⟨16, _⟩ => ⟨S_, .f32⟩
  | .hbm, ⟨17, _⟩ => ⟨S8192x64x128, .f32⟩
  | .hbm, ⟨18, _⟩ => ⟨S8192x64x128, .f32⟩
  | .hbm, ⟨19, _⟩ => ⟨S1x1x128, .f32⟩
  | .hbm, ⟨20, _⟩ => ⟨S8192x64x128, .f32⟩
  | .hbm, ⟨21, _⟩ => ⟨S8192x64x128, .f32⟩
  | .hbm, ⟨22, _⟩ => ⟨S1x1x128, .f32⟩
  | .hbm, ⟨23, _⟩ => ⟨S8192x64x128, .f32⟩
  | .hbm, ⟨24, _⟩ => ⟨S8192x64x128, .f32⟩
  | .hbm, ⟨25, _⟩ => ⟨S8192x64x128, .f32⟩
  | .hbm, ⟨26, _⟩ => ⟨S8192x64x128, .f32⟩
  | .hbm, ⟨27, _⟩ => ⟨S8192x64x128, .f32⟩
  | .hbm, ⟨28, _⟩ => ⟨S8192x64x16, .f32⟩
  | .hbm, ⟨29, _⟩ => ⟨S1x1x16, .f32⟩
  | .hbm, ⟨30, _⟩ => ⟨S8192x64x16, .f32⟩
  | .hbm, ⟨31, _⟩ => ⟨S8192x64x16, .f32⟩
  | _, _ => ⟨S8192x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8192x64x128_0_1_2 : S1x1x128.BroadcastsInDim S8192x64x128 (![0, 1, 2] : Fin 3 → Fin S8192x64x128.rank)
  reducesTo_S8192x64x128_S8192x128_d1 : S8192x64x128.ReducesTo [1] S8192x128
  h_S_ : 0 < S_.numel
  bcast_S8192x128_S8192x1x128_0_2 : S8192x128.BroadcastsInDim S8192x1x128 (![0, 2] : Fin 2 → Fin S8192x1x128.rank)
  bcast_S8192x1x128_S8192x64x128_0_1_2 : S8192x1x128.BroadcastsInDim S8192x64x128 (![0, 1, 2] : Fin 3 → Fin S8192x64x128.rank)
  bcast_S_S8192x64x128 : S_.BroadcastsInDim S8192x64x128 (![] : Fin 0 → Fin S8192x64x128.rank)
  bcast_S16_S1x1x16_2 : S16.BroadcastsInDim S1x1x16 (![2] : Fin 1 → Fin S1x1x16.rank)
  bcast_S1x1x16_S8192x64x16_0_1_2 : S1x1x16.BroadcastsInDim S8192x64x16 (![0, 1, 2] : Fin 3 → Fin S8192x64x16.rank)
  dot_S8192x64x128_S128x16_S8192x64x16_2_0_01_1_n_n_wf : DotDims.WF S8192x64x128 S128x16 S8192x64x16 [2] [0] [0, 1] [1] [] []

variable [Facts₀]

def dot_S8192x64x128_S128x16_S8192x64x16_2_0_01_1_n_n : DotDims S8192x64x128 S128x16 S8192x64x16 where
  lhsContracting := [2]
  rhsContracting := [0]
  lhsNonContracting := [0, 1]
  rhsNonContracting := [1]
  lhsBatch := []
  rhsBatch := []
  wf := dot_S8192x64x128_S128x16_S8192x64x16_2_0_01_1_n_n_wf

class Facts : Prop extends Facts₀ where

variable [Facts]
-- ==== Proof.Spec.lean ====
/-
  Two rounds of mean message passing among 64 agents with a gated tanh update, then one linear head
  shared by all agents, written for ONE batch row: `x n d` is feature `d` of agent `n`.

    h1 n d  = tanh (a d * x n d)
    c1 n d  = ((sum over j of h1 j d) - h1 n d) * (1/63)          -- the mean of the OTHER 63 agents
    h2 n d  = tanh (g d * h1 n d + c d * c1 n d) + x n d
    out n o = (sum over d of h2 n d * w d o) + b o

  All arithmetic is on the extended reals. Both programs of this certificate compute `out`, row by row.
-/
import Idealize.ShloMosaic.PureOps.Ideal

noncomputable section

open scoped BigOperators

namespace CommNet

open Idealize.ShloMosaic

/-- The first hidden state: `tanh (a d * x n d)`. -/
def hid1 (x : Fin 64 → Fin 128 → EReal) (a : Fin 128 → EReal) (n : Fin 64) (d : Fin 128) : EReal :=
  Ideal.tanh (a d * x n d)

/-- The second hidden state: the gated update from the agent's own first state and the mean of the other
    63 agents' first states, plus the skip connection from the input. -/
def hid2 (x : Fin 64 → Fin 128 → EReal) (a g c : Fin 128 → EReal) (n : Fin 64) (d : Fin 128) : EReal :=
  Ideal.tanh (g d * hid1 x a n d + c d * (((∑ j : Fin 64, hid1 x a j d) - hid1 x a n d) * ((1 / 63 : ℝ) : EReal)))
    + x n d

/-- The head: agent `n`'s second state times the weight matrix, plus the bias. -/
def head (x : Fin 64 → Fin 128 → EReal) (a g c : Fin 128 → EReal) (w : Fin 128 → Fin 16 → EReal)
    (b : Fin 16 → EReal) (n : Fin 64) (o : Fin 16) : EReal :=
  (∑ d : Fin 128, hid2 x a g c n d * w d o) + b o

/-- The weight matrix laid twice on the diagonal of a 256 × 32 matrix of zeros: rows 0–127 × columns 0–15 and
    rows 128–255 × columns 16–31 hold `w`, everything else is `z`. -/
def blockDiag {α : Type} (z : α) (w : Fin 128 → Fin 16 → α) (k : Fin 256) (c : Fin 32) : α :=
  if h : k.val < 128 ∧ c.val < 16 then w ⟨k.val, h.1⟩ ⟨c.val, h.2⟩
  else if h : 128 ≤ k.val ∧ 16 ≤ c.val then w ⟨k.val - 128, by have := k.isLt; omega⟩ ⟨c.val - 16, by have := c.isLt; omega⟩
  else z

end CommNet

end
-- ==== Proof.RefHead.lean ====
/-
  The reference program, read at one output index, is the specification's head.

  The reference computes, for every batch row b, agent n and output o,

      out b n o = (sum over d of h2 b n d * w d o) + bias o,
      h2 b n d  = tanh (g d * h1 b n d + c d * ((sum over j of h1 b j d) - h1 b n d) / 63) + x b n d,
      h1 b n d  = tanh (a d * x b n d),

  on the extended reals. Row b of this is CommNet.head of row b of x: the sum over the agents starts from the
  literal zero, which is the extended real 0, and the division by the literal 63 is the product with the real 1/63
  on every extended real. The stages are read one at a time, from the innermost outwards.
-/
import proofs.«413553_j87660282512012_3_alg».proof.Proof.Gen.ReferenceIdeal.Read
import proofs.«413553_j87660282512012_3_alg».proof.Proof.Spec
import Idealize.ShloMosaic.Lib.ValueIdx
import Idealize.ShloMosaic.PureOps.Ideal.Laws

noncomputable section

open scoped BigOperators

namespace Cert.ReferenceIdeal.RefHead

open Cert.ReferenceIdeal Cert.ReferenceIdeal.Read Idealize.ShloMosaic Idealize.ShloMosaic.ValueIdx

/-! ## The literal 63 -/

/-- The f32 word 0x427C0000 (sign 0, exponent 132, fraction 0x7C0000) denotes the real number 63. -/
theorem ofBits_63 : Idealize.ShloMosaic.Ideal.ofBits .f32 0x427C0000#32 = ((63 : ℝ) : EReal) := by
  simp [Idealize.ShloMosaic.Ideal.ofBits, Idealize.ShloMosaic.Ideal.ieee, -EReal.coe_mul]; norm_num

/-! ## The composed index maps, at an index given by its coordinates -/

/-- A feature vector broadcast to [1, 1, 128] and then to [8192, 64, 128] is read at the feature coordinate. -/
theorem idx_v0_v1 (b : Fin 8192) (n : Fin 64) (d : Fin 128) : idx_main_v0 (idx_main_v1 (ix3 b n d)) = ix1 d :=
  funext fun a => Fin.ext (by match a with | ⟨0, _⟩ => rfl)

theorem idx_v10_v11 (b : Fin 8192) (n : Fin 64) (d : Fin 128) : idx_main_v10 (idx_main_v11 (ix3 b n d)) = ix1 d :=
  funext fun a => Fin.ext (by match a with | ⟨0, _⟩ => rfl)

theorem idx_v13_v14 (b : Fin 8192) (n : Fin 64) (d : Fin 128) : idx_main_v13 (idx_main_v14 (ix3 b n d)) = ix1 d :=
  funext fun a => Fin.ext (by match a with | ⟨0, _⟩ => rfl)

/-- The bias broadcast to [1, 1, 16] and then to [8192, 64, 16] is read at the output coordinate. -/
theorem idx_v20_v21 (b : Fin 8192) (n : Fin 64) (o : Fin 16) : idx_main_v20 (idx_main_v21 (ix3 b n o)) = ix1 o :=
  funext fun a => Fin.ext (by match a with | ⟨0, _⟩ => rfl)

/-- The row sums, kept as [8192, 1, 128] and broadcast over the agents, are read at (row, feature). -/
theorem idx_v5_v6 (b : Fin 8192) (n : Fin 64) (d : Fin 128) : idx_main_v5 (idx_main_v6 (ix3 b n d)) = ix2 b d :=
  funext fun a => Fin.ext (by match a with | ⟨0, _⟩ => rfl | ⟨1, _⟩ => rfl)

/-- The k-th summand of the sum over the agents at (row, feature) is agent k's entry. -/
theorem idx_v4 (b : Fin 8192) (d : Fin 128) (k : Fin 64) : idx_main_v4 (ix2 b d) k = ix3 b k d :=
  funext fun a => Fin.ext (by match a with | ⟨0, _⟩ => rfl | ⟨1, _⟩ => rfl | ⟨2, _⟩ => rfl)

/-- The k-th summand of the contraction reads the left operand at (row, agent, k) … -/
theorem lidx_v19 (b : Fin 8192) (n : Fin 64) (o : Fin 16) (k : Fin 128) : lidx_main_v19 (ix3 b n o) k = ix3 b n k :=
  funext fun a => Fin.ext (by match a with | ⟨0, _⟩ => rfl | ⟨1, _⟩ => rfl | ⟨2, _⟩ => rfl)

/-- … and the weight matrix at (k, output). -/
theorem ridx_v19 (b : Fin 8192) (n : Fin 64) (o : Fin 16) (k : Fin 128) : ridx_main_v19 (ix3 b n o) k = ix2 k o :=
  funext fun a => Fin.ext (by match a with | ⟨0, _⟩ => rfl | ⟨1, _⟩ => rfl)

/-! ## The stages -/

section Stages

variable (x0 : (⟨S8192x64x128, .f32⟩ : BufTy).Contents (Elt Idealize.ShloMosaic.Ideal))
  (x1 x3 x4 : (⟨S128, .f32⟩ : BufTy).Contents (Elt Idealize.ShloMosaic.Ideal))
  (x5 : (⟨S128x16, .f32⟩ : BufTy).Contents (Elt Idealize.ShloMosaic.Ideal))
  (x6 : (⟨S16, .f32⟩ : BufTy).Contents (Elt Idealize.ShloMosaic.Ideal))

/-- The first hidden state: tanh (a d * x b n d). -/
theorem v3_at (b : Fin 8192) (n : Fin 64) (d : Fin 128) :
    val_main_v3 (F := Idealize.ShloMosaic.Ideal) x0 x1 (ix3 b n d)
      = CommNet.hid1 (fun n d => x0 (ix3 b n d)) (fun d => x1 (ix1 d)) n d := by
  rw [val_main_v3_apply, val_main_v2_apply, val_main_v1_apply, val_main_v0_apply, idx_v0_v1]
  rfl

/-- The sum of the first hidden states over the 64 agents: the literal it starts from is 0. -/
theorem v4_at (b : Fin 8192) (d : Fin 128) :
    val_main_v4 (F := Idealize.ShloMosaic.Ideal) x0 x1 (ix2 b d)
      = ∑ j : Fin 64, CommNet.hid1 (fun n d => x0 (ix3 b n d)) (fun d => x1 (ix1 d)) j d := by
  rw [val_main_v4_apply, val_main_cst_apply, Idealize.ShloMosaic.Ideal.ofBits_def,
    Idealize.ShloMosaic.Ideal.ofBits_zero_f32, zero_add]
  refine Finset.sum_congr rfl fun k _ => ?_
  rw [idx_v4, v3_at]

/-- The mean of the other 63 agents: the quotient by the literal 63 is the product with 1/63. -/
theorem v9_at (b : Fin 8192) (n : Fin 64) (d : Fin 128) :
    val_main_v9 (F := Idealize.ShloMosaic.Ideal) x0 x1 (ix3 b n d)
      = ((∑ j : Fin 64, CommNet.hid1 (fun n d => x0 (ix3 b n d)) (fun d => x1 (ix1 d)) j d)
          - CommNet.hid1 (fun n d => x0 (ix3 b n d)) (fun d => x1 (ix1 d)) n d) * ((1 / 63 : ℝ) : EReal) := by
  rw [val_main_v9_apply, val_main_v7_apply, val_main_v6_apply, val_main_v5_apply, idx_v5_v6, v4_at, v3_at,
    val_main_v8_apply, val_main_cst_0_apply, Idealize.ShloMosaic.Ideal.ofBits_def, ofBits_63,
    Idealize.ShloMosaic.Ideal.hostDivf_def, Idealize.ShloMosaic.Ideal.div_coe (by norm_num : (63 : ℝ) ≠ 0)]
  rfl

/-- The second hidden state. -/
theorem v18_at (b : Fin 8192) (n : Fin 64) (d : Fin 128) :
    val_main_v18 (F := Idealize.ShloMosaic.Ideal) x0 x1 x3 x4 (ix3 b n d)
      = CommNet.hid2 (fun n d => x0 (ix3 b n d)) (fun d => x1 (ix1 d)) (fun d => x3 (ix1 d)) (fun d => x4 (ix1 d)) n d := by
  rw [val_main_v18_apply, val_main_v17_apply, val_main_v16_apply, val_main_v12_apply, val_main_v15_apply,
    val_main_v11_apply, val_main_v10_apply, idx_v10_v11, val_main_v14_apply, val_main_v13_apply, idx_v13_v14,
    v3_at, v9_at]
  rfl

/-- The reference's result at (row b, agent n, output o) is the head of row b. -/
theorem ref_head (b : Fin 8192) (n : Fin 64) (o : Fin 16) :
    val_main_v22 (F := Idealize.ShloMosaic.Ideal) x0 x1 x3 x4 x5 x6 (ix3 b n o)
      = CommNet.head (fun n d => x0 (ix3 b n d)) (fun d => x1 (ix1 d)) (fun d => x3 (ix1 d)) (fun d => x4 (ix1 d))
          (fun d o => x5 (ix2 d o)) (fun o => x6 (ix1 o)) n o := by
  rw [val_main_v22_apply, val_main_v19_apply, val_main_v21_apply, val_main_v20_apply, idx_v20_v21]
  show (∑ k : Fin 128, _) + x6 (ix1 o) = (∑ k : Fin 128, _) + x6 (ix1 o)
  refine congrArg (· + x6 (ix1 o)) (Finset.sum_congr rfl fun k _ => ?_)
  rw [lidx_v19, ridx_v19, v18_at]

end Stages

end Cert.ReferenceIdeal.RefHead

end
-- ==== Proof.Layers.lean ====
/-
  The pointwise half of the kernel body, read at an index: on a block of 128 batch rows the body forms, for row p,
  agent n and feature d, the two hidden states of the message-passing network of row p. The row sum over the 64
  agents is a lane reduction along the middle axis; the three weight vectors are laid along the last axis and
  repeated; the mean of the other agents is the row sum less the agent's own state, times the constant named 1/63.
-/
import proofs.«413553_j87660282512012_3_alg».proof.Proof.Gen.KernelIdeal.Skeleton
import proofs.«413553_j87660282512012_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-- A vector of 128 features cast to one row of one agent and repeated over rows and agents reads, at (p, n, d),
    its entry d. -/
theorem featRow_apply {α : Type} (hs : S128.ShapeCasts S1x1x128) (hb : S1x1x128.Broadcasts S128x64x128)
    (v : S128.Idx → α) (p : Fin 128) (n : Fin 64) (d : Fin 128) :
    broadcastTo S128x64x128 (shapeCast S1x1x128 v hs) hb (ix3 p n d) = v (ix1 d) := by
  refine (broadcastTo_apply _ hb (ix3 p n d) (ix3 (0 : Fin 1) (0 : Fin 1) d) (fun a => ?_)).trans ?_
  · match a with
    | ⟨0, _⟩ => rfl
    | ⟨1, _⟩ => rfl
    | ⟨2, _⟩ => rfl
  · refine shapeCast_apply v hs _ (ix1 d) ?_
    rw [Shape.rowMajor_val_one, Shape.rowMajor_val_three]
    show d.val = (0 * 1 + 0) * 128 + d.val
    omega

/-- The sum over the agents, kept as one agent and repeated over the 64: at (p, n, d) it reads the sum's entry (p, d). -/
theorem sumRow_apply {α : Type} (hs : S128x128.ShapeCasts S128x1x128) (hb : S128x1x128.Broadcasts S128x64x128)
    (v : S128x128.Idx → α) (p : Fin 128) (n : Fin 64) (d : Fin 128) :
    broadcastTo S128x64x128 (shapeCast S128x1x128 v hs) hb (ix3 p n d) = v (ix2 p d) := by
  refine (broadcastTo_apply _ hb (ix3 p n d) (ix3 p (0 : Fin 1) d) (fun a => ?_)).trans ?_
  · match a with
    | ⟨0, _⟩ => rfl
    | ⟨1, _⟩ => rfl
    | ⟨2, _⟩ => rfl
  · refine shapeCast_apply v hs _ (ix2 p d) ?_
    rw [Shape.rowMajor_val_two, Shape.rowMajor_val_three]
    show p.val * 128 + d.val = (p.val * 1 + 0) * 128 + d.val
    omega

/-- The lane reduction along the agents' axis, at (p, d): the sum over the 64 agents. -/
theorem agentSum_apply (hr : S128x64x128.Reduces [1] S128x128) (hf : FKind.Formats FTy.f32)
    (ha : (0x00000000#32 : BitVec 32) = 0x00000000#32)
    (y : FVec Ideal S128x64x128 .f32) (p : Fin 128) (d : Fin 128) :
    multiReduction .add [1] S128x128 y 0x00000000#32 hr hf ha (ix2 p d) = ∑ j : Fin 64, y (ix3 p j d) := by
  refine (Ideal.multiReduction_add_single y 0x00000000#32 hr hf ha (ix2 p d)).trans ?_
  refine Finset.sum_congr rfl fun j _ => congrArg y ?_
  funext a
  apply Fin.ext
  match a with
  | ⟨0, _⟩ => rfl
  | ⟨1, _⟩ => rfl
  | ⟨2, _⟩ => rfl

/-- The constant the kernel multiplies the sum of the others by is named 1/63. -/
theorem inv63 : Named.named (F := Ideal) κ "inv_63" (φ := .f32) 0x3C820821#32 = ((1 / 63 : ℝ) : EReal) :=
  IdealRules.named_const.ideal_named_scalar _ _ _ _ rfl

/-- The vector unit's tanh, entry by entry. -/
theorem tanh_apply {s : Shape} {φ : FTy} (a : FVec Ideal s φ) (i : s.Idx) : tanh a i = Ideal.tanh (a i) := rfl

/-- The first hidden state of the block: tanh of the first weight vector times the block. -/
def hid1B (x0 : Vec Ideal S128x64x128 .f32) (x1 : Vec Ideal S128 .f32) : FVec Ideal S128x64x128 .f32 :=
  tanh (mulf (broadcastTo S128x64x128 (shapeCast S1x1x128 x1 shapeCasts_S128_S1x1x128) broadcasts_S1x1x128_S128x64x128) x0)

/-- The second hidden state of the block, as the body computes it. -/
def hid2B (x0 : Vec Ideal S128x64x128 .f32) (x1 x2 x3 : Vec Ideal S128 .f32) : FVec Ideal S128x64x128 .f32 :=
  addf (tanh (addf
      (mulf (broadcastTo S128x64x128 (shapeCast S1x1x128 x2 shapeCasts_S128_S1x1x128) broadcasts_S1x1x128_S128x64x128) (hid1B x0 x1))
      (mulf (broadcastTo S128x64x128 (shapeCast S1x1x128 x3 shapeCasts_S128_S1x1x128) broadcasts_S1x1x128_S128x64x128)
        (mulf (subf (broadcastTo S128x64x128 (shapeCast S128x1x128
            (multiReduction .add [1] S128x128 (hid1B x0 x1) 0x00000000#32 reduces_S128x64x128_S128x128 (.inl rfl) rfl)
            shapeCasts_S128x128_S128x1x128) broadcasts_S128x1x128_S128x64x128) (hid1B x0 x1))
          (broadcast S128x64x128 (Named.named κ "inv_63" 0x3C820821#32)))))) x0

/-- Row p of the block's first hidden state is the first hidden state of row p. -/
theorem hid1B_apply (x0 : Vec Ideal S128x64x128 .f32) (x1 : Vec Ideal S128 .f32) (p : Fin 128) (n : Fin 64) (d : Fin 128) :
    hid1B x0 x1 (ix3 p n d) = CommNet.hid1 (fun n d => x0 (ix3 p n d)) (fun d => x1 (ix1 d)) n d := by
  unfold hid1B
  rw [tanh_apply, mulf_apply, featRow_apply]
  rfl

/-- Row p of the block's second hidden state is the second hidden state of row p. -/
theorem hid2B_apply (x0 : Vec Ideal S128x64x128 .f32) (x1 x2 x3 : Vec Ideal S128 .f32) (p : Fin 128) (n : Fin 64) (d : Fin 128) :
    hid2B x0 x1 x2 x3 (ix3 p n d)
      = CommNet.hid2 (fun n d => x0 (ix3 p n d)) (fun d => x1 (ix1 d)) (fun d => x2 (ix1 d)) (fun d => x3 (ix1 d)) n d := by
  unfold hid2B
  simp only [addf_apply, tanh_apply, mulf_apply, subf_apply, broadcast_apply, featRow_apply, sumRow_apply, inv63]
  rw [agentSum_apply]
  simp only [hid1B_apply]
  rfl

end Cert.KernelIdeal.Pay

end
-- ==== Proof.BlockSum.lean ====
/-
  One product with the block-diagonal weight matrix does the work of two products with the weight matrix.

  Lay two rows u, v of 128 numbers side by side as one row of 256 and multiply by the 256 × 32 matrix that holds w
  in its upper-left and lower-right blocks and zeros elsewhere: the first 16 entries of the result are u · w, the
  last 16 are v · w. The sum over 256 splits into two sums over 128; in each, one half meets only zeros, and on
  the extended reals anything times zero is zero and adding zero changes nothing, so no finiteness is needed.
-/
import proofs.«413553_j87660282512012_3_alg».proof.Proof.Spec
import Mathlib.Algebra.BigOperators.Fin

noncomputable section

open scoped BigOperators

namespace CommNet

/-- Two rows of 128 side by side as one row of 256. -/
def sideBySide {α : Type} (u v : Fin 128 → α) (k : Fin 256) : α :=
  if h : k.val < 128 then u ⟨k.val, h⟩ else v ⟨k.val - 128, by have := k.isLt; omega⟩

theorem sideBySide_left {α : Type} (u v : Fin 128 → α) (i : Fin 128) :
    sideBySide u v (Fin.castAdd 128 i : Fin (128 + 128)) = u i := by
  unfold sideBySide
  rw [dif_pos (show (Fin.castAdd 128 i : Fin (128 + 128)).val < 128 from i.isLt)]
  rfl

theorem sideBySide_right {α : Type} (u v : Fin 128 → α) (i : Fin 128) :
    sideBySide u v (Fin.natAdd 128 i : Fin (128 + 128)) = v i := by
  unfold sideBySide
  rw [dif_neg (show ¬ (Fin.natAdd 128 i : Fin (128 + 128)).val < 128 from by
    show ¬ 128 + i.val < 128
    omega)]
  exact congrArg v (Fin.ext (by show 128 + i.val - 128 = i.val; omega))

/-- In the upper 128 rows the block-diagonal matrix holds w in its first 16 columns and zeros in the last 16. -/
theorem blockDiag_upper {α : Type} (z : α) (w : Fin 128 → Fin 16 → α) (i : Fin 128) (c : Fin 32) :
    blockDiag z w (Fin.castAdd 128 i : Fin (128 + 128)) c = if h : c.val < 16 then w i ⟨c.val, h⟩ else z := by
  unfold blockDiag
  have hi : (Fin.castAdd 128 i : Fin (128 + 128)).val = i.val := rfl
  by_cases hc : c.val < 16
  · rw [dif_pos hc, dif_pos ⟨by rw [hi]; exact i.isLt, hc⟩]
    rfl
  · rw [dif_neg hc, dif_neg (fun h => hc h.2), dif_neg (fun h => by rw [hi] at h; have := i.isLt; omega)]

/-- In the lower 128 rows it holds zeros in its first 16 columns and w in the last 16. -/
theorem blockDiag_lower {α : Type} (z : α) (w : Fin 128 → Fin 16 → α) (i : Fin 128) (c : Fin 32) :
    blockDiag z w (Fin.natAdd 128 i : Fin (128 + 128)) c
      = if h : c.val < 16 then z else w i ⟨c.val - 16, by have := c.isLt; omega⟩ := by
  unfold blockDiag
  have hi : (Fin.natAdd 128 i : Fin (128 + 128)).val = 128 + i.val := rfl
  by_cases hc : c.val < 16
  · rw [dif_pos hc, dif_neg (fun h => by rw [hi] at h; omega), dif_neg (fun h => by omega)]
  · rw [dif_neg hc, dif_neg (fun h => hc h.2), dif_pos ⟨by rw [hi]; omega, by omega⟩]
    exact congrArg (fun q => w q _) (Fin.ext (by show 128 + i.val - 128 = i.val; omega))

/-- The row (u | v) times the block-diagonal matrix, at column c: u · w at c in the first 16 columns, v · w at
    c - 16 in the last 16. -/
theorem sum_sideBySide_blockDiag (u v : Fin 128 → EReal) (w : Fin 128 → Fin 16 → EReal) (c : Fin 32) :
    ∑ k : Fin 256, sideBySide u v k * blockDiag 0 w k c
      = if h : c.val < 16 then ∑ d : Fin 128, u d * w d ⟨c.val, h⟩
        else ∑ d : Fin 128, v d * w d ⟨c.val - 16, by have := c.isLt; omega⟩ := by
  refine (Fin.sum_univ_add (M := EReal) (a := 128) (b := 128) (fun k : Fin (128 + 128) => sideBySide u v k * blockDiag 0 w k c)).trans ?_
  simp only [sideBySide_left, sideBySide_right, blockDiag_upper, blockDiag_lower]
  by_cases hc : c.val < 16
  · simp only [dif_pos hc, mul_zero, Finset.sum_const_zero, add_zero]
  · simp only [dif_neg hc, mul_zero, Finset.sum_const_zero, zero_add]

end CommNet

end
-- ==== Proof.Pack.lean ====
/-
  The second half of the kernel body, read at an index: the block's second hidden state is cut into the agents
  0–31 and 32–63, the two halves are laid side by side along the feature axis (row (p, i) of 256 features holds
  agent i and agent i + 32 of batch row p), multiplied on the matrix unit by the 256 × 32 weight operand, and the
  32 result columns are dealt back: columns 0–15 to agent i, columns 16–31 to agent i + 32, each plus the bias.
  The result is stored with the agent and output axes merged into one axis of 1024.
-/
import proofs.«413553_j87660282512012_3_alg».proof.Proof.Layers
import proofs.«413553_j87660282512012_3_alg».proof.Proof.BlockSum

noncomputable section

open scoped BigOperators

namespace Cert.KernelIdeal.Pay

open Cert.KernelIdeal Cert.KernelIdeal.Gen Idealize.ShloMosaic Idealize.ShloMosaic.ValueIdx

/-! ## The two halves of the agents, side by side -/

/-- The left operand of the product: the hidden state narrowed (the identity on extended reals), its two halves of
    agents concatenated along the features, rows (p, i) flattened. -/
def packedRows (y : FVec Ideal S128x64x128 .f32) : FVec Ideal S4096x256 .bf16 :=
  shapeCast S4096x256
    (concatenate S128x32x256 2
      [⟨S128x32x128, extractStridedSlice S128x32x128 ![0, 0, 0] (truncf .bf16 y bitsLt_bf16_f32) slices_S128x64x128_o0_0_0_S128x32x128⟩,
       ⟨S128x32x128, extractStridedSlice S128x32x128 ![0, 32, 0] (truncf .bf16 y bitsLt_bf16_f32) slices_S128x64x128_o0_32_0_S128x32x128⟩]
      concatenates_S128x32x128_S128x32x128_S128x32x256_d2)
    shapeCasts_S128x32x256_S4096x256

/-- Row r = 32 p + i of the left operand is agent i of row p followed by agent i + 32 of row p. -/
theorem packedRows_apply (y : FVec Ideal S128x64x128 .f32) (p : Fin 128) (i : Fin 32) (r : Fin 4096)
    (hr : r.val = p.val * 32 + i.val) (k : Fin 256) :
    packedRows y (ix2 r k)
      = CommNet.sideBySide (fun d => y (ix3 p ⟨i.val, by have := i.isLt; omega⟩ d))
          (fun d => y (ix3 p ⟨i.val + 32, by have := i.isLt; omega⟩ d)) k := by
  unfold packedRows CommNet.sideBySide
  refine (shapeCast_apply _ shapeCasts_S128x32x256_S4096x256 (ix2 r k) (ix3 p i k) ?_).trans ?_
  · rw [Shape.rowMajor_val_two, Shape.rowMajor_val_three]
    show (p.val * 32 + i.val) * 256 + k.val = r.val * 256 + k.val
    rw [hr]
  by_cases hk : k.val < 128
  · rw [dif_pos hk]
    refine (concatenate_pair_apply_left 2 _ _ concatenates_S128x32x128_S128x32x128_S128x32x256_d2 (ix3 p i k) rfl
      (ix3 p i (⟨k.val, hk⟩ : Fin 128)) (fun b => ?_)).trans ?_
    · match b with
      | ⟨0, _⟩ => rfl
      | ⟨1, _⟩ => rfl
      | ⟨2, _⟩ => rfl
    · exact slice3_axis1_apply 0 _ slices_S128x64x128_o0_0_0_S128x32x128 p i (⟨k.val, hk⟩ : Fin 128)
        (⟨i.val, by have := i.isLt; omega⟩ : Fin 64) (by show i.val = 0 + i.val; omega)
  · rw [dif_neg hk]
    have hk2 : k.val - 128 < 128 := by have := k.isLt; omega
    refine (concatenate_pair_apply_right 2 _ _ concatenates_S128x32x128_S128x32x128_S128x32x256_d2 (ix3 p i k) rfl rfl
      (ix3 p i (⟨k.val - 128, hk2⟩ : Fin 128)) (fun b hb => ?_) ?_).trans ?_
    · match b with
      | ⟨0, _⟩ => rfl
      | ⟨1, _⟩ => rfl
      | ⟨2, _⟩ => exact absurd rfl hb
    · show k.val - 128 + 128 = k.val
      omega
    · exact slice3_axis1_apply 32 _ slices_S128x64x128_o0_32_0_S128x32x128 p i (⟨k.val - 128, hk2⟩ : Fin 128)
        (⟨i.val + 32, by have := i.isLt; omega⟩ : Fin 64) (by show i.val + 32 = 32 + i.val; omega)

/-! ## The product on the matrix unit -/

theorem lhs_rows (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem lhs_contr (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem rhs_contr (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem rhs_cols (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- The product of a 4096 × 256 matrix with a 256 × 32 matrix, accumulated into zeros, at (r, c): the sum over the
    256 contracted features. -/
theorem prod_apply (l : FVec Ideal S4096x256 .bf16) (rhs : FVec Ideal S256x32 .bf16) (r : Fin 4096) (c : Fin 32) :
    matmul dot_S4096x256_S256x32_S4096x32_1_0_0_1_n_n none l rhs (constant S4096x32 .f32 0x00000000#32) (ix2 r c)
      = ∑ k : Fin 256, l (ix2 r k) * rhs (ix2 k c) := by
  refine (Ideal.matmul_constant_zero_apply dot_S4096x256_S256x32_S4096x32_1_0_0_1_n_n none l rhs (ix2 r c)).trans ?_
  rw [← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 r c) ((contrEquiv1 dot_S4096x256_S256x32_S4096x32_1_0_0_1_n_n 256 rfl rfl).symm k) = ix2 r k := funext fun a => Fin.ext (by
    match a with
    | ⟨0, _⟩ => exact lhs_rows _ _
    | ⟨1, _⟩ => exact (lhs_contr _ _).trans hk)
  have er : dot_S4096x256_S256x32_S4096x32_1_0_0_1_n_n.rhsIdx (ix2 r c) ((contrEquiv1 dot_S4096x256_S256x32_S4096x32_1_0_0_1_n_n 256 rfl rfl).symm k) = ix2 k c := funext fun a => Fin.ext (by
    match a with
    | ⟨0, _⟩ => exact (rhs_contr _ _).trans hk
    | ⟨1, _⟩ => exact rhs_cols _ _)
  rw [el, er]

/-- The product, its rows unflattened to (p, i). -/
def prodRows (l : FVec Ideal S4096x256 .bf16) (x4 : Vec Ideal S256x32 .f32) : FVec Ideal S128x32x32 .f32 :=
  shapeCast S128x32x32
    (matmul dot_S4096x256_S256x32_S4096x32_1_0_0_1_n_n none l
      (truncf .bf16 (shapeCast S256x32 x4 shapeCasts_S256x32_S256x32) bitsLt_bf16_f32) (constant S4096x32 .f32 0x00000000#32))
    shapeCasts_S4096x32_S128x32x32

theorem prodRows_apply (l : FVec Ideal S4096x256 .bf16) (x4 : Vec Ideal S256x32 .f32) (p : Fin 128) (i : Fin 32) (c : Fin 32)
    (r : Fin 4096) (hr : r.val = p.val * 32 + i.val) :
    prodRows l x4 (ix3 p i c) = ∑ k : Fin 256, l (ix2 r k) * x4 (ix2 k c) := by
  unfold prodRows
  refine (shapeCast_apply _ shapeCasts_S4096x32_S128x32x32 (ix3 p i c) (ix2 r c) ?_).trans ?_
  · rw [Shape.rowMajor_val_two, Shape.rowMajor_val_three]
    show r.val * 32 + c.val = (p.val * 32 + i.val) * 32 + c.val
    rw [hr]
  rw [prod_apply, shapeCast_self]
  rfl

/-! ## The bias, and dealing the columns back to the agents -/

/-- The bias vector cast to one row of one agent and repeated reads, at (p, i, o), its entry o. -/
theorem biasRow_apply {α : Type} (hs : S16.ShapeCasts S1x1x16) (hb : S1x1x16.Broadcasts S128x32x16)
    (v : S16.Idx → α) (p : Fin 128) (i : Fin 32) (o : Fin 16) :
    broadcastTo S128x32x16 (shapeCast S1x1x16 v hs) hb (ix3 p i o) = v (ix1 o) := by
  refine (broadcastTo_apply _ hb (ix3 p i o) (ix3 (0 : Fin 1) (0 : Fin 1) o) (fun a => ?_)).trans ?_
  · match a with
    | ⟨0, _⟩ => rfl
    | ⟨1, _⟩ => rfl
    | ⟨2, _⟩ => rfl
  · refine shapeCast_apply v hs _ (ix1 o) ?_
    rw [Shape.rowMajor_val_one, Shape.rowMajor_val_three]
    show o.val = (0 * 1 + 0) * 16 + o.val
    omega

/-- Sixteen of the 32 result columns, from column `off` on. -/
theorem cols_apply {α : Type} (off : ℕ) (hs : S128x32x32.Slices ![0, 0, off] S128x32x16) (v : S128x32x32.Idx → α)
    (p : Fin 128) (i : Fin 32) (o : Fin 16) (c : Fin 32) (hc : c.val = off + o.val) :
    extractStridedSlice S128x32x16 ![0, 0, off] v hs (ix3 p i o) = v (ix3 p i c) :=
  extractStridedSlice_apply _ v hs (ix3 p i o) (ix3 p i c) (fun a => by
    match a with
    | ⟨0, _⟩ => exact (Nat.zero_add _).symm
    | ⟨1, _⟩ => exact (Nat.zero_add _).symm
    | ⟨2, _⟩ => exact hc)

/-- What the body stores: both halves of the columns plus the bias, the halves stacked along the agents, the agent
    and output axes merged. -/
def headRows (l : FVec Ideal S4096x256 .bf16) (x4 : Vec Ideal S256x32 .f32) (x5 : Vec Ideal S16 .f32) : FVec Ideal S128x1024 .f32 :=
  shapeCast S128x1024
    (concatenate S128x64x16 1
      [⟨S128x32x16, addf (extractStridedSlice S128x32x16 ![0, 0, 0] (prodRows l x4) slices_S128x32x32_o0_0_0_S128x32x16)
          (broadcastTo S128x32x16 (shapeCast S1x1x16 x5 shapeCasts_S16_S1x1x16) broadcasts_S1x1x16_S128x32x16)⟩,
       ⟨S128x32x16, addf (extractStridedSlice S128x32x16 ![0, 0, 16] (prodRows l x4) slices_S128x32x32_o0_0_16_S128x32x16)
          (broadcastTo S128x32x16 (shapeCast S1x1x16 x5 shapeCasts_S16_S1x1x16) broadcasts_S1x1x16_S128x32x16)⟩]
      concatenates_S128x32x16_S128x32x16_S128x64x16_d1)
    shapeCasts_S128x64x16_S128x1024

/-- Entry (p, 16 n + o) of what is stored: for an agent of the first half the product's row (p, n) at column o, for
    an agent of the second half its row (p, n - 32) at column o + 16; plus the bias at o. -/
theorem headRows_apply (l : FVec Ideal S4096x256 .bf16) (x4 : Vec Ideal S256x32 .f32) (x5 : Vec Ideal S16 .f32)
    (p : Fin 128) (n : Fin 64) (o : Fin 16) (j : Fin 1024) (hj : j.val = n.val * 16 + o.val) :
    headRows l x4 x5 (ix2 p j)
      = if h : n.val < 32 then prodRows l x4 (ix3 p ⟨n.val, h⟩ ⟨o.val, by have := o.isLt; omega⟩) + x5 (ix1 o)
        else prodRows l x4 (ix3 p ⟨n.val - 32, by have := n.isLt; omega⟩ ⟨o.val + 16, by have := o.isLt; omega⟩) + x5 (ix1 o) := by
  unfold headRows
  refine (shapeCast_apply _ shapeCasts_S128x64x16_S128x1024 (ix2 p j) (ix3 p n o) ?_).trans ?_
  · rw [Shape.rowMajor_val_two, Shape.rowMajor_val_three]
    show (p.val * 64 + n.val) * 16 + o.val = p.val * 1024 + j.val
    rw [hj]; omega
  by_cases hn : n.val < 32
  · rw [dif_pos hn]
    refine (concatenate_pair_apply_left 1 _ _ concatenates_S128x32x16_S128x32x16_S128x64x16_d1 (ix3 p n o) rfl
      (ix3 p (⟨n.val, hn⟩ : Fin 32) o) (fun b => ?_)).trans ?_
    · match b with
      | ⟨0, _⟩ => rfl
      | ⟨1, _⟩ => rfl
      | ⟨2, _⟩ => rfl
    · rw [addf_apply, biasRow_apply, cols_apply 0 _ _ p ⟨n.val, hn⟩ o ⟨o.val, by have := o.isLt; omega⟩ (by show o.val = 0 + o.val; omega)]
  · rw [dif_neg hn]
    have hn2 : n.val - 32 < 32 := by have := n.isLt; omega
    refine (concatenate_pair_apply_right 1 _ _ concatenates_S128x32x16_S128x32x16_S128x64x16_d1 (ix3 p n o) rfl rfl
      (ix3 p (⟨n.val - 32, hn2⟩ : Fin 32) o) (fun b hb => ?_) ?_).trans ?_
    · match b with
      | ⟨0, _⟩ => rfl
      | ⟨1, _⟩ => exact absurd rfl hb
      | ⟨2, _⟩ => rfl
    · show n.val - 32 + 32 = n.val
      omega
    · rw [addf_apply, biasRow_apply, cols_apply 16 _ _ p ⟨n.val - 32, hn2⟩ o ⟨o.val + 16, by have := o.isLt; omega⟩ (by show o.val + 16 = 16 + o.val; omega)]

/-! ## The body's stored value, entry by entry -/

/-- The body's one stored value is the composition of the stages above. -/
theorem pay_eq (x0 : Vec Ideal S128x64x128 .f32) (x1 x2 x3 : Vec Ideal S128 .f32) (x4 : Vec Ideal S256x32 .f32) (x5 : Vec Ideal S16 .f32) :
    k0_pay1 (F := Ideal) x0 x1 x2 x3 x4 x5 = headRows (packedRows (hid2B x0 x1 x2 x3)) x4 x5 := rfl

/-- When the weight operand is the block-diagonal matrix of w, entry (p, 16 n + o) of what the body stores is the
    head of batch row p at agent n and output o: for an agent of the first half the product meets w in the upper-left
    block, for one of the second half in the lower-right block, and the other block's zeros contribute nothing. -/
theorem pay_apply (x0 : Vec Ideal S128x64x128 .f32) (x1 x2 x3 : Vec Ideal S128 .f32) (x4 : Vec Ideal S256x32 .f32) (x5 : Vec Ideal S16 .f32)
    (w : Fin 128 → Fin 16 → EReal) (hx4 : ∀ k c, x4 (ix2 k c) = CommNet.blockDiag 0 w k c)
    (p : Fin 128) (n : Fin 64) (o : Fin 16) (j : Fin 1024) (hj : j.val = n.val * 16 + o.val) :
    k0_pay1 (F := Ideal) x0 x1 x2 x3 x4 x5 (ix2 p j)
      = CommNet.head (fun n d => x0 (ix3 p n d)) (fun d => x1 (ix1 d)) (fun d => x2 (ix1 d)) (fun d => x3 (ix1 d)) w
          (fun o => x5 (ix1 o)) n o := by
  rw [pay_eq, headRows_apply _ _ _ p n o j hj]
  unfold CommNet.head
  have hp := p.isLt
  have ho := o.isLt
  by_cases hn : n.val < 32
  · rw [dif_pos hn, prodRows_apply _ _ p ⟨n.val, hn⟩ _ ⟨p.val * 32 + n.val, by omega⟩ rfl]
    simp only [packedRows_apply _ p ⟨n.val, hn⟩ ⟨p.val * 32 + n.val, by omega⟩ rfl, hx4]
    rw [CommNet.sum_sideBySide_blockDiag, dif_pos (show (⟨o.val, by omega⟩ : Fin 32).val < 16 from ho)]
    simp only [hid2B_apply]
  · have hn' := n.isLt
    rw [dif_neg hn, prodRows_apply _ _ p ⟨n.val - 32, by omega⟩ _ ⟨p.val * 32 + (n.val - 32), by omega⟩ rfl]
    simp only [packedRows_apply _ p ⟨n.val - 32, by omega⟩ ⟨p.val * 32 + (n.val - 32), by omega⟩ rfl, hx4]
    rw [CommNet.sum_sideBySide_blockDiag, dif_neg (show ¬ (⟨o.val + 16, by omega⟩ : Fin 32).val < 16 from by show ¬ o.val + 16 < 16; omega)]
    simp only [hid2B_apply]
    have e1 : (⟨n.val - 32 + 32, by omega⟩ : Fin 64) = n := Fin.ext (by show n.val - 32 + 32 = n.val; omega)
    have e2 : (⟨o.val + 16 - 16, by omega⟩ : Fin 16) = o := Fin.ext (by show o.val + 16 - 16 = o.val; omega)
    rw [e1, e2]

end Cert.KernelIdeal.Pay

end
-- ==== Proof.LibScatterRead.lean ====
/-
  The host scatter read at one index.

  A scatter is a left fold, over the update indices in row-major order, of a step that changes the one result element
  the update index lands on (or nothing, when it lands outside the operand). Read at one index of the result:
  where no update index lands, the operand's element is kept; where exactly one update index lands, the element is the
  body applied to the operand's element and that update's element. Stated for any dimension record and any body, and
  first for any left fold of such single-element steps.
-/
import Idealize.ShloMosaic.Lib.ValueIdx

namespace ScatterRead
open Idealize.ShloMosaic

/-! ## A left fold of single-element overwrites, read at one index

Step n lands on the index g n (or on none), and changes the running function only there. -/

section Fold
variable {ι κ α : Type}

/-- An index that no step of the list lands on keeps its initial value. -/
theorem foldl_apply_of_forall_ne (g : ι → Option κ) (step : (κ → α) → ι → κ → α)
    (miss : ∀ r n i', g n ≠ some i' → step r n i' = r i')
    (i' : κ) (l : List ι) (h : ∀ n ∈ l, g n ≠ some i') (x : κ → α) :
    l.foldl step x i' = x i' := by
  induction l generalizing x with
  | nil => rfl
  | cons m l ih =>
    rw [List.foldl_cons, ih (fun n hn => h n (List.mem_cons_of_mem _ hn)),
      miss _ _ _ (h m List.mem_cons_self)]

/-- An index that exactly one step n of a duplicate-free list lands on holds, at the end, the body applied to
    its initial value and step n's update: the steps before n leave it alone, step n writes it, and the
    steps after n leave it alone again. -/
theorem foldl_apply_of_unique (g : ι → Option κ) (f : α → α → α) (v : ι → α) (step : (κ → α) → ι → κ → α)
    (hit : ∀ r n i, g n = some i → step r n i = f (r i) (v n))
    (miss : ∀ r n i', g n ≠ some i' → step r n i' = r i')
    (i' : κ) (n : ι) (hn : g n = some i') (l : List ι) (hl : l.Nodup) (hmem : n ∈ l)
    (huniq : ∀ m ∈ l, g m = some i' → m = n) (x : κ → α) :
    l.foldl step x i' = f (x i') (v n) := by
  induction l generalizing x with
  | nil => cases hmem
  | cons m l ih =>
    rw [List.foldl_cons]
    have hnd := List.nodup_cons.1 hl
    by_cases hmn : m = n
    · rw [foldl_apply_of_forall_ne g step miss i' l, hmn, hit _ _ _ hn]
      intro m' hm' e
      have := huniq m' (List.mem_cons_of_mem _ hm') e
      exact hnd.1 (hmn ▸ this ▸ hm')
    · have hm : g m ≠ some i' := fun e => hmn (huniq m List.mem_cons_self e)
      rw [ih hnd.2 ((List.mem_cons.1 hmem).resolve_left (Ne.symm hmn))
        (fun m' hm' => huniq m' (List.mem_cons_of_mem _ hm')), miss _ _ _ hm]

end Fold

/-! ## The host scatter read at one index -/

section Scatter
variable {α : Type} {s si u : Shape} {w : Nat}

/-- One step of the scatter's fold, at the index it lands on: the body applied to the running value there and
    the update's element. -/
theorem scatter_step_hit (d : ScatterDims s si u) (f : α → α → α) (idx : IVec si w) (upd : u.Idx → α)
    (r : s.Idx → α) (n : Fin u.numel) (i : s.Idx) (hi : d.resultIdx? (u.rowMajor.symm n) idx = some i) :
    (match d.resultIdx? (u.rowMajor.symm n) idx with
      | some i => fun i' => if i' = i then f (r i) (upd (u.rowMajor.symm n)) else r i'
      | none => r) i = f (r i) (upd (u.rowMajor.symm n)) := by
  generalize d.resultIdx? (u.rowMajor.symm n) idx = o at hi
  cases hi
  exact if_pos rfl

/-- One step of the scatter's fold, at an index it does not land on: the running value there. -/
theorem scatter_step_miss (d : ScatterDims s si u) (f : α → α → α) (idx : IVec si w) (upd : u.Idx → α)
    (r : s.Idx → α) (n : Fin u.numel) (k : s.Idx) (hk : d.resultIdx? (u.rowMajor.symm n) idx ≠ some k) :
    (match d.resultIdx? (u.rowMajor.symm n) idx with
      | some i => fun i' => if i' = i then f (r i) (upd (u.rowMajor.symm n)) else r i'
      | none => r) k = r k := by
  generalize d.resultIdx? (u.rowMajor.symm n) idx = o at hk
  cases o with
  | none => rfl
  | some i => exact if_neg (fun e => hk (by rw [e]))

/-- A result index that no update index lands on keeps the operand's element. -/
theorem scatter_apply_of_forall_ne (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  unfold Host.scatter
  exact foldl_apply_of_forall_ne (fun n => d.resultIdx? (u.rowMajor.symm n) idx) _
    (fun r n k hk => scatter_step_miss d f idx upd r n k hk) i' _ (fun n _ => h _) x

/-- A result index that exactly one update index j lands on holds the body applied to the operand's element
    and the update's element at j. -/
theorem scatter_apply_of_unique (d : ScatterDims s si u) (f : α → α → α) (x : s.Idx → α) (idx : IVec si w)
    (upd : u.Idx → α) (i' : s.Idx) (j : u.Idx) (hj : d.resultIdx? j idx = some i')
    (huniq : ∀ j' : u.Idx, d.resultIdx? j' idx = some i' → j' = j) :
    Host.scatter d f x idx upd i' = f (x i') (upd j) := by
  unfold Host.scatter
  have hj' : upd j = upd (u.rowMajor.symm (u.rowMajor j)) := by rw [Equiv.symm_apply_apply]
  rw [hj']
  refine foldl_apply_of_unique (fun n => d.resultIdx? (u.rowMajor.symm n) idx) f
    (fun n => upd (u.rowMajor.symm n)) _
    (fun r n i hi => scatter_step_hit d f idx upd r n i hi)
    (fun r n k hk => scatter_step_miss d f idx upd r n k hk) i' (u.rowMajor j) ?_ _
    (List.nodup_finRange _) (List.mem_finRange _) ?_ x
  · show d.resultIdx? (u.rowMajor.symm (u.rowMajor j)) idx = some i'
    rw [Equiv.symm_apply_apply]; exact hj
  · intro m _ e
    replace e : d.resultIdx? (u.rowMajor.symm m) idx = some i' := e
    rw [← huniq _ e, Equiv.apply_symm_apply]

end Scatter

end ScatterRead
-- ==== Proof.Packed.lean ====
/-
  The weight operand of the kernel, read at one index.

  The host code writes a 128 x 16 matrix w twice into a 256 x 32 matrix x: once with its corner at (0, 0) and once
  with its corner at (128, 16). Each write is a scatter with ONE start index and the whole matrix as its update
  window, its body returning the update. The scatter is a left fold, over the update indices in row-major order, of
  a step that overwrites the one result element the update index lands on.

  1. (In the general module this one imports.) A fold of such single-element overwrites, read at an index: untouched
     where no step lands; the body applied to the initial value and the update where exactly one step of a
     duplicate-free list lands.
  2. (There too.) The same two facts for the scatter itself, for any dimension record and any body.
  3. For this program's dimension record, update index (p, q) under the start index (o0, o1) lands at
     (p + o0, q + o1) whenever the window fits; adding an offset is injective, so each result index inside the
     window is reached exactly once, and one scatter is the update inside the window and the operand outside it.
  4. The two scatters composed: w on rows 0 to 127 x columns 0 to 15 and on rows 128 to 255 x columns 16 to 31, and
     x everywhere else.
-/
import proofs.«413553_j87660282512012_3_alg».proof.Proof.Gen.KernelIdeal
import proofs.«413553_j87660282512012_3_alg».proof.Proof.Spec
import proofs.«413553_j87660282512012_3_alg».proof.Proof.LibScatterRead
import Idealize.ShloMosaic.Lib.ValueIdx
import Idealize.ShloMosaic.Lib.ValueLayout
import Idealize.ShloMosaic.Lib.Pipeline.Value

namespace Cert.KernelIdeal.Packed
open Cert.KernelIdeal Cert.KernelIdeal.Gen Idealize.ShloMosaic Idealize.ShloMosaic.ValueIdx ScatterRead

/-! ## The 128 x 16 window written into the 256 x 32 matrix at one start index -/

section Dims
variable {α : Type} {w : Nat}
local notation "D" => scatter_S256x32_S2_S128x16_01_n_01_0

/-- On operand axis 0 the window starts at component 0 of the start index, read signed. -/
theorem start_zero (j : S128x16.Idx) (idx : IVec S2 w) : ScatterDims.start D j idx 0 = (idx (ix1 0)).toInt := by
  unfold ScatterDims.start
  rw [dif_pos (by decide)]
  congr 2
  funext b; match b with | ⟨0, _⟩ => rfl

/-- On operand axis 1 the window starts at component 1 of the start index, read signed. -/
theorem start_one (j : S128x16.Idx) (idx : IVec S2 w) : ScatterDims.start D j idx 1 = (idx (ix1 1)).toInt := by
  unfold ScatterDims.start
  rw [dif_pos (by decide)]
  congr 2
  funext b; match b with | ⟨0, _⟩ => rfl

/-- The window coordinate on operand axis 0 is the update index's row. -/
theorem window_zero (j : S128x16.Idx) : ScatterDims.window D j 0 = (j 0).val := by
  unfold ScatterDims.window
  rw [dif_pos (by decide)]
  rfl

/-- The window coordinate on operand axis 1 is the update index's column. -/
theorem window_one (j : S128x16.Idx) : ScatterDims.window D j 1 = (j 1).val := by
  unfold ScatterDims.window
  rw [dif_pos (by decide)]
  rfl

/-- With a start index (o0, o1) that keeps the whole window inside the matrix, update index j lands at
    (j 0 + o0, j 1 + o1). -/
theorem resultIdx?_eq (idx : IVec S2 w) (o0 o1 : Nat) (h0 : (idx (ix1 0)).toInt = (o0 : Int))
    (h1 : (idx (ix1 1)).toInt = (o1 : Int)) (ho0 : o0 + 128 ≤ 256) (ho1 : o1 + 16 ≤ 32) (j : S128x16.Idx) :
    ScatterDims.resultIdx? D j idx
      = some (ix2 ⟨(j 0).val + o0, by have := idx2_lt0 j; omega⟩ ⟨(j 1).val + o1, by have := idx2_lt1 j; omega⟩) := by
  have hj0 := idx2_lt0 j
  have hj1 := idx2_lt1 j
  unfold ScatterDims.resultIdx?
  rw [dif_pos]
  · congr 1
    funext a
    match a with
    | ⟨0, _⟩ =>
      apply Fin.ext
      show (ScatterDims.start D j idx 0 + (ScatterDims.window D j 0 : Int)).toNat = (j 0).val + o0
      rw [start_zero, window_zero, h0]; omega
    | ⟨1, _⟩ =>
      apply Fin.ext
      show (ScatterDims.start D j idx 1 + (ScatterDims.window D j 1 : Int)).toNat = (j 1).val + o1
      rw [start_one, window_one, h1]; omega
  · intro a
    match a with
    | ⟨0, _⟩ =>
      show 0 ≤ ScatterDims.start D j idx 0 + (ScatterDims.window D j 0 : Int)
        ∧ ScatterDims.start D j idx 0 + (ScatterDims.window D j 0 : Int) < (256 : Nat)
      rw [start_zero, window_zero, h0]; omega
    | ⟨1, _⟩ =>
      show 0 ≤ ScatterDims.start D j idx 1 + (ScatterDims.window D j 1 : Int)
        ∧ ScatterDims.start D j idx 1 + (ScatterDims.window D j 1 : Int) < (32 : Nat)
      rw [start_one, window_one, h1]; omega

/-- One scatter of the whole 128 x 16 update at the start index (o0, o1), the body returning the update: inside
    the window the result is the update's element, outside it the operand's. Every result index inside the
    window is reached by exactly one update index, because adding the offset is injective. -/
theorem scatter_window_apply (x : S256x32.Idx → α) (idx : IVec S2 w) (upd : S128x16.Idx → α) (o0 o1 : Nat)
    (h0 : (idx (ix1 0)).toInt = (o0 : Int)) (h1 : (idx (ix1 1)).toInt = (o1 : Int))
    (ho0 : o0 + 128 ≤ 256) (ho1 : o1 + 16 ≤ 32) (k : Fin 256) (c : Fin 32) :
    Host.scatter D (fun _ b => b) x idx upd (ix2 k c)
      = if h : (o0 ≤ k.val ∧ k.val < o0 + 128) ∧ (o1 ≤ c.val ∧ c.val < o1 + 16) then
          upd (ix2 ⟨k.val - o0, by omega⟩ ⟨c.val - o1, by omega⟩)
        else x (ix2 k c) := by
  by_cases h : (o0 ≤ k.val ∧ k.val < o0 + 128) ∧ (o1 ≤ c.val ∧ c.val < o1 + 16)
  · rw [dif_pos h]
    refine scatter_apply_of_unique D (fun _ b => b) x idx upd (ix2 k c)
      (ix2 ⟨k.val - o0, by omega⟩ ⟨c.val - o1, by omega⟩) ?_ ?_
    · rw [resultIdx?_eq idx o0 o1 h0 h1 ho0 ho1]
      congr 1
      funext a
      match a with
      | ⟨0, _⟩ => apply Fin.ext; show k.val - o0 + o0 = k.val; omega
      | ⟨1, _⟩ => apply Fin.ext; show c.val - o1 + o1 = c.val; omega
    · intro j' hj'
      rw [resultIdx?_eq idx o0 o1 h0 h1 ho0 ho1] at hj'
      have e := Option.some.inj hj'
      have e0 : (j' 0).val + o0 = k.val := congrArg Fin.val (congrFun e 0)
      have e1 : (j' 1).val + o1 = c.val := congrArg Fin.val (congrFun e 1)
      rw [eq_ix2 j']
      congr 1
      · apply Fin.ext; show (j' 0).val = k.val - o0; omega
      · apply Fin.ext; show (j' 1).val = c.val - o1; omega
  · rw [dif_neg h]
    refine scatter_apply_of_forall_ne D (fun _ b => b) x idx upd (ix2 k c) ?_
    intro j hj
    rw [resultIdx?_eq idx o0 o1 h0 h1 ho0 ho1] at hj
    have e := Option.some.inj hj
    have e0 : (j 0).val + o0 = k.val := congrArg Fin.val (congrFun e 0)
    have e1 : (j 1).val + o1 = c.val := congrArg Fin.val (congrFun e 1)
    have hj0 := idx2_lt0 j
    have hj1 := idx2_lt1 j
    exact h (by omega)

end Dims

/-! ## The two start indices of the program, and the packed matrix -/

/-- Component 0 of the start index built by concatenating two broadcast scalars is the first scalar. -/
theorem startIdx_apply_zero (a b : BitVec 32) :
    concatenate S2 0 [⟨S1, broadcastInDim S1 ![] bcast_S_S1 (constantI S_ 32 a)⟩,
      ⟨S1, broadcastInDim S1 ![] bcast_S_S1 (constantI S_ 32 b)⟩] concatenates_S1_S1_S2_d0 (ix1 0) = a := by
  rfl

/-- Component 1 of the start index built by concatenating two broadcast scalars is the second scalar. -/
theorem startIdx_apply_one (a b : BitVec 32) :
    concatenate S2 0 [⟨S1, broadcastInDim S1 ![] bcast_S_S1 (constantI S_ 32 a)⟩,
      ⟨S1, broadcastInDim S1 ![] bcast_S_S1 (constantI S_ 32 b)⟩] concatenates_S1_S1_S2_d0 (ix1 1) = b := by
  rfl

/-- The weight operand the host code leaves: the 128 x 16 matrix written at (0, 0) and again at (128, 16) of the
    256 x 32 operand. The second write covers rows 128 to 255 and columns 16 to 31; elsewhere the first write's
    result shows, which is the matrix on rows 0 to 127 and columns 0 to 15 and the operand everywhere else. -/
theorem packed_apply {α : Type} (x : S256x32.Idx → α) (w : S128x16.Idx → α) (k : Fin 256) (c : Fin 32) :
    Host.scatter scatter_S256x32_S2_S128x16_01_n_01_0 (fun _ b => b)
      (Host.scatter scatter_S256x32_S2_S128x16_01_n_01_0 (fun _ b => b) x
        (concatenate S2 0 [⟨S1, broadcastInDim S1 ![] bcast_S_S1 (constantI S_ 32 0#32)⟩, ⟨S1, broadcastInDim S1 ![] bcast_S_S1 (constantI S_ 32 0#32)⟩] concatenates_S1_S1_S2_d0) w)
      (concatenate S2 0 [⟨S1, broadcastInDim S1 ![] bcast_S_S1 (constantI S_ 32 128#32)⟩, ⟨S1, broadcastInDim S1 ![] bcast_S_S1 (constantI S_ 32 16#32)⟩] concatenates_S1_S1_S2_d0) w (ix2 k c)
    = CommNet.blockDiag (x (ix2 k c)) (fun d o => w (ix2 d o)) k c := by
  have hk := k.isLt
  have hc := c.isLt
  rw [scatter_window_apply _ _ w 128 16 (by rw [startIdx_apply_zero]; decide) (by rw [startIdx_apply_one]; decide)
    (by omega) (by omega) k c]
  rw [scatter_window_apply x _ w 0 0 (by rw [startIdx_apply_zero]; decide) (by rw [startIdx_apply_one]; decide)
    (by omega) (by omega) k c]
  unfold CommNet.blockDiag
  by_cases hA : k.val < 128 ∧ c.val < 16
  · rw [dif_neg (by omega), dif_pos (by omega), dif_pos hA]
    rfl
  · by_cases hB : 128 ≤ k.val ∧ 16 ≤ c.val
    · rw [dif_pos (by omega), dif_neg hA, dif_pos hB]
    · rw [dif_neg (by omega), dif_neg (by omega), dif_neg hA, dif_neg hB]

end Cert.KernelIdeal.Packed
-- ==== Proof.Whole.lean ====
/-
  From blocks to the whole array, and on to the program's result.

  The pallas_call walks the 8192 batch rows in 64 blocks of 128. Point t reads rows 128 t … 128 t + 127 of the input,
  the three weight vectors, the block-diagonal weight matrix the host lines before the call build from the head's
  weight matrix, and the bias; it writes rows 128 t … 128 t + 127 of a 8192 × 1024 array. Each row of what it writes is
  the head of that batch row, agents and outputs merged into one axis; the blocks tile the array; the host line after
  the call splits the merged axis again.
-/
import proofs.«413553_j87660282512012_3_alg».proof.Proof.Gen.KernelIdeal.Frame
import proofs.«413553_j87660282512012_3_alg».proof.Proof.Pack
import proofs.«413553_j87660282512012_3_alg».proof.Proof.Packed
import Idealize.ShloMosaic.Lib.StableHlo.Run

set_option maxRecDepth 16384

noncomputable section

open scoped BigOperators

namespace Cert.KernelIdeal.Whole

open Cert.KernelIdeal Cert.KernelIdeal.Gen Cert.KernelIdeal.Pay Idealize.ShloMosaic Idealize.ShloMosaic.TcCoe Idealize.SL.Sem
open Idealize.ShloMosaic.ValueIdx Idealize.ShloMosaic.StableHlo
open Idealize.ShloMosaic.Pipeline (Dat)

/-! ## The result as one function of the argument arrays -/

/-- The head of every batch row: entry (b, n, o) is the head of row b at agent n and output o. -/
def headAll (X : S8192x64x128.Idx → EReal) (a g cc : S128.Idx → EReal) (W : S128x16.Idx → EReal) (bias : S16.Idx → EReal) :
    S8192x64x16.Idx → EReal := fun i =>
  CommNet.head (fun n d => X (ix3 (i 0) n d)) (fun d => a (ix1 d)) (fun d => g (ix1 d)) (fun d => cc (ix1 d))
    (fun d o => W (ix2 d o)) (fun o => bias (ix1 o)) (i 1) (i 2)

/-- The same with agents and outputs merged: entry (b, 16 n + o). -/
def headFlat (X : S8192x64x128.Idx → EReal) (a g cc : S128.Idx → EReal) (W : S128x16.Idx → EReal) (bias : S16.Idx → EReal) :
    S8192x1024.Idx → EReal := fun i =>
  CommNet.head (fun n d => X (ix3 (i 0) n d)) (fun d => a (ix1 d)) (fun d => g (ix1 d)) (fun d => cc (ix1 d))
    (fun d o => W (ix2 d o)) (fun o => bias (ix1 o))
    ⟨(i 1).val / 16, by have h : (i 1).val < 1024 := (i 1).isLt; omega⟩ ⟨(i 1).val % 16, Nat.mod_lt _ (by decide)⟩

/-- Splitting the merged axis of the flat form gives the three-axis form. -/
theorem reshape_headFlat (hs : S8192x1024.ShapeCasts S8192x64x16) (X : S8192x64x128.Idx → EReal) (a g cc : S128.Idx → EReal)
    (W : S128x16.Idx → EReal) (bias : S16.Idx → EReal) :
    shapeCast S8192x64x16 (headFlat X a g cc W bias) hs = headAll X a g cc W bias := by
  funext i
  obtain ⟨b, n, o, rfl⟩ : ∃ (b : Fin 8192) (n : Fin 64) (o : Fin 16), i = ix3 b n o := ⟨i 0, i 1, i 2, eq_ix3 i⟩
  have hn := n.isLt
  have ho := o.isLt
  refine (shapeCast_apply _ hs (ix3 b n o) (ix2 b (⟨n.val * 16 + o.val, by omega⟩ : Fin 1024)) ?_).trans ?_
  · rw [Shape.rowMajor_val_two, Shape.rowMajor_val_three]
    show b.val * 1024 + (n.val * 16 + o.val) = (b.val * 64 + n.val) * 16 + o.val
    omega
  · unfold headFlat headAll
    have e1 : (⟨(n.val * 16 + o.val) / 16, by omega⟩ : Fin 64) = n := Fin.ext (by show (n.val * 16 + o.val) / 16 = n.val; omega)
    have e2 : (⟨(n.val * 16 + o.val) % 16, Nat.mod_lt _ (by decide)⟩ : Fin 16) = o := Fin.ext (by show (n.val * 16 + o.val) % 16 = o.val; omega)
    show CommNet.head _ _ _ _ _ _ (⟨(n.val * 16 + o.val) / 16, _⟩ : Fin 64) (⟨(n.val * 16 + o.val) % 16, _⟩ : Fin 16) = CommNet.head _ _ _ _ _ _ n o
    rw [e1, e2]

variable (m : (ℓ : Loc nD τ sig) → Buf (Elt Ideal) ℓ) (ρ : Dev nD → PrngReg)

/-! ## What the region finds in its operands -/

/-- The weight operand, as the host lines before the call leave it: the head's weight matrix written twice into zeros. -/
theorem weights_eq (c : Dev nD) :
    (V m c main_v8 : S256x32.Idx → EReal)
      = Host.scatter scatter_S256x32_S2_S128x16_01_n_01_0 (fun _ b => b)
          (Host.scatter scatter_S256x32_S2_S128x16_01_n_01_0 (fun _ b => b)
            (broadcastInDim S256x32 ![] bcast_S_S256x32 (constant (F := Ideal) S_ .f32 0x00000000#32))
            (concatenate S2 0 [⟨S1, broadcastInDim S1 ![] bcast_S_S1 (constantI S_ 32 0#32)⟩, ⟨S1, broadcastInDim S1 ![] bcast_S_S1 (constantI S_ 32 0#32)⟩] concatenates_S1_S1_S2_d0)
            (m ((c : Thread nD τ).loc main_arg5)))
          (concatenate S2 0 [⟨S1, broadcastInDim S1 ![] bcast_S_S1 (constantI S_ 32 128#32)⟩, ⟨S1, broadcastInDim S1 ![] bcast_S_S1 (constantI S_ 32 16#32)⟩] concatenates_S1_S1_S2_d0)
          (m ((c : Thread nD τ).loc main_arg5)) := by
  show StableHlo.after hostOps0 (fun b => m (c, b)) (Proc.devRef .tc main_v8) = _
  after_results

/-- Entry (k, c') of the weight operand: the block-diagonal matrix of the head's weights. -/
theorem weights_apply (c : Dev nD) (k : Fin 256) (c' : Fin 32) :
    (V m c main_v8 : S256x32.Idx → EReal) (ix2 k c')
      = CommNet.blockDiag (α := EReal) 0 (fun d o => (m ((c : Thread nD τ).loc main_arg5) : S128x16.Idx → EReal) (ix2 d o)) k c' := by
  rw [weights_eq, Packed.packed_apply]
  have hz : (broadcastInDim S256x32 ![] bcast_S_S256x32 (constant (F := Ideal) S_ .f32 0x00000000#32) : S256x32.Idx → EReal) (ix2 k c') = 0 :=
    (broadcastInDim_apply ![] bcast_S_S256x32 _ (ix2 k c') ix0 (fun a => a.elim0)).trans Ideal.ofBits_zero_f32
  rw [hz]

/-- The relation between the printed index maps, decided over the 64 points: the input's and the output's blocks
    move together along the batch axis, every other operand's block stays put. -/
theorem idx_facts : ∀ t : Fin cfg0.N, win0_0.index t (0 : Fin 3) = t.val ∧ win0_0.index t (1 : Fin 3) = 0 ∧ win0_0.index t (2 : Fin 3) = 0
    ∧ win0_1.index t (0 : Fin 1) = 0 ∧ win0_2.index t (0 : Fin 1) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = t.val ∧ win0_6.index t (1 : Fin 2) = 0 :=
  (by decide +kernel : ∀ t : Fin grid0.N, _)

/-! ## Each operand's block at a point -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Row p of the input's block at point t is row 128 t + p of the input. -/
theorem rows_blk (c : Dev nD) (t : Fin cfg0.N) (p : Fin 128) (n : Fin 64) (d : Fin 128) :
    (iblk m c 0 t : S128x64x128.Idx → EReal) (ix3 p n d)
      = (V m c main_arg0 : S8192x64x128.Idx → EReal) (ix3 (⟨t.val * 128 + p.val, by have : t.val < 64 := t.isLt; have := p.isLt; omega⟩ : Fin 8192) n d) := by
  obtain ⟨e0, e1, e2, -⟩ := idx_facts t
  show (V m c main_arg0 : S8192x64x128.Idx → EReal) (((cfg0.win 0).blk t).view.emb (ix3 p n d)) = _
  refine congrArg _ (funext fun a => Fin.ext ?_)
  match a with
  | ⟨0, _⟩ => show win0_0.index t (0 : Fin 3) * 128 + 1 * p.val = t.val * 128 + p.val; rw [e0]; omega
  | ⟨1, _⟩ => show win0_0.index t (1 : Fin 3) * 64 + 1 * n.val = n.val; rw [e1]; omega
  | ⟨2, _⟩ => show win0_0.index t (2 : Fin 3) * 128 + 1 * d.val = d.val; rw [e2]; omega

/-- The three weight vectors, the weight matrix and the bias are read whole at every point. -/
theorem vec1_blk (c : Dev nD) (t : Fin cfg0.N) (d : Fin 128) :
    (iblk m c 1 t : S128.Idx → EReal) (ix1 d) = (V m c main_arg1 : S128.Idx → EReal) (ix1 d) := by
  obtain ⟨-, -, -, e, -⟩ := idx_facts t
  show (V m c main_arg1 : S128.Idx → EReal) (((cfg0.win 1).blk t).view.emb (ix1 d)) = _
  refine congrArg _ (funext fun a => Fin.ext ?_)
  match a with
  | ⟨0, _⟩ => show win0_1.index t (0 : Fin 1) * 128 + 1 * d.val = d.val; rw [e]; omega

theorem vec2_blk (c : Dev nD) (t : Fin cfg0.N) (d : Fin 128) :
    (iblk m c 2 t : S128.Idx → EReal) (ix1 d) = (V m c main_arg3 : S128.Idx → EReal) (ix1 d) := by
  obtain ⟨-, -, -, -, e, -⟩ := idx_facts t
  show (V m c main_arg3 : S128.Idx → EReal) (((cfg0.win 2).blk t).view.emb (ix1 d)) = _
  refine congrArg _ (funext fun a => Fin.ext ?_)
  match a with
  | ⟨0, _⟩ => show win0_2.index t (0 : Fin 1) * 128 + 1 * d.val = d.val; rw [e]; omega

theorem vec3_blk (c : Dev nD) (t : Fin cfg0.N) (d : Fin 128) :
    (iblk m c 3 t : S128.Idx → EReal) (ix1 d) = (V m c main_arg4 : S128.Idx → EReal) (ix1 d) := by
  obtain ⟨-, -, -, -, -, e, -⟩ := idx_facts t
  show (V m c main_arg4 : S128.Idx → EReal) (((cfg0.win 3).blk t).view.emb (ix1 d)) = _
  refine congrArg _ (funext fun a => Fin.ext ?_)
  match a with
  | ⟨0, _⟩ => show win0_3.index t (0 : Fin 1) * 128 + 1 * d.val = d.val; rw [e]; omega

theorem wts_blk (c : Dev nD) (t : Fin cfg0.N) (k : Fin 256) (c' : Fin 32) :
    (iblk m c 4 t : S256x32.Idx → EReal) (ix2 k c') = (V m c main_v8 : S256x32.Idx → EReal) (ix2 k c') := by
  obtain ⟨-, -, -, -, -, -, e0, e1, -⟩ := idx_facts t
  show (V m c main_v8 : S256x32.Idx → EReal) (((cfg0.win 4).blk t).view.emb (ix2 k c')) = _
  refine congrArg _ (funext fun a => Fin.ext ?_)
  match a with
  | ⟨0, _⟩ => show win0_4.index t (0 : Fin 2) * 256 + 1 * k.val = k.val; rw [e0]; omega
  | ⟨1, _⟩ => show win0_4.index t (1 : Fin 2) * 32 + 1 * c'.val = c'.val; rw [e1]; omega

theorem bias_blk (c : Dev nD) (t : Fin cfg0.N) (o : Fin 16) :
    (iblk m c 5 t : S16.Idx → EReal) (ix1 o) = (V m c main_arg6 : S16.Idx → EReal) (ix1 o) := by
  obtain ⟨-, -, -, -, -, -, -, -, e, -⟩ := idx_facts t
  show (V m c main_arg6 : S16.Idx → EReal) (((cfg0.win 5).blk t).view.emb (ix1 o)) = _
  refine congrArg _ (funext fun a => Fin.ext ?_)
  match a with
  | ⟨0, _⟩ => show win0_5.index t (0 : Fin 1) * 16 + 1 * o.val = o.val; rw [e]; omega

/-! ## What a point writes back, and the array after the run -/

/-- The output array after the call, as a function of what the region finds in its operands. -/
abbrev flatOf (c : Dev nD) : S8192x1024.Idx → EReal :=
  headFlat (V m c main_arg0) (V m c main_arg1) (V m c main_arg3) (V m c main_arg4) (m ((c : Thread nD τ).loc main_arg5)) (V m c main_arg6)

/-- What point t writes back is block t of the flat head of the arrays the region finds. -/
theorem flushed_eq (c : Dev nD) (t : Fin cfg0.N) :
    (dats m 0 c).flushed 6 t = ((cfg0.win 6).blk t).view.read (Elt Ideal) (flatOf m c) := by
  show (cfg0.win 6).cut (grid0.coords t) ((dats m 0 c).after 6 t) = _
  rw [after0_6]
  unfold out0_6
  rw [View.canon_unit_zero hz2]
  simp only [View.ld_unit_zero (S := S128x64x128) hz3, View.ld_unit_zero (S := S128) hz1, View.ld_unit_zero (S := S256x32) hz2,
    View.ld_unit_zero (S := S16) hz1]
  funext j
  obtain ⟨p, q, rfl⟩ : ∃ (p : Fin 128) (q : Fin 1024), j = ix2 p q := ⟨j 0, j 1, eq_ix2 j⟩
  have ht : t.val < 64 := t.isLt
  have hp := p.isLt
  have hq := q.isLt
  obtain ⟨-, -, -, -, -, -, -, -, -, e9, e10⟩ := idx_facts t
  have hemb : ((cfg0.win 6).blk t).view.emb (ix2 p q) = ix2 (⟨t.val * 128 + p.val, by omega⟩ : Fin 8192) q :=
    funext fun a => Fin.ext (by
      match a with
      | ⟨0, _⟩ => show win0_6.index t (0 : Fin 2) * 128 + 1 * p.val = t.val * 128 + p.val; rw [e9]; omega
      | ⟨1, _⟩ => show win0_6.index t (1 : Fin 2) * 1024 + 1 * q.val = q.val; rw [e10]; omega)
  show k0_pay1 (F := Ideal) (iblk m c 0 t) (iblk m c 1 t) (iblk m c 2 t) (iblk m c 3 t) (iblk m c 4 t) (iblk m c 5 t) (ix2 p q)
    = flatOf m c (((cfg0.win 6).blk t).view.emb (ix2 p q))
  rw [hemb]
  refine (pay_apply (iblk m c 0 t) (iblk m c 1 t) (iblk m c 2 t) (iblk m c 3 t) (iblk m c 4 t) (iblk m c 5 t)
    (fun d o => (m ((c : Thread nD τ).loc main_arg5) : S128x16.Idx → EReal) (ix2 d o))
    (fun k c' => (wts_blk m c t k c').trans (weights_apply m c k c'))
    p (⟨q.val / 16, by omega⟩ : Fin 64) (⟨q.val % 16, Nat.mod_lt _ (by decide)⟩ : Fin 16) q
    (by show q.val = q.val / 16 * 16 + q.val % 16; omega)).trans ?_
  simp only [rows_blk, vec1_blk, vec2_blk, vec3_blk, bias_blk]
  rfl

/-- An index of the output array is in point t's block iff each coordinate is in the block's range on its axis. -/
theorem mem_blk (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v9).slice (win0_6.rect t)).set ↔ _
  rw [View.set_slice_whole, Rect.mem_set_unit]
  exact Iff.rfl

/-- Every index of the output array is in the block of the point that holds its batch row. -/
theorem covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hlt : (i 0).val / 128 < 64 := by omega
  obtain ⟨-, -, -, -, -, -, -, -, -, e9, e10⟩ := idx_facts (⟨(i 0).val / 128, hlt⟩ : Fin cfg0.N)
  refine ⟨⟨(i 0).val / 128, hlt⟩, flush0_6 _, ?_⟩
  rw [mem_blk]
  intro a
  match a with
  | ⟨0, _⟩ =>
    show win0_6.index ⟨(i 0).val / 128, hlt⟩ (0 : Fin 2) * 128 ≤ (i 0).val ∧ (i 0).val < win0_6.index ⟨(i 0).val / 128, hlt⟩ (0 : Fin 2) * 128 + 128
    rw [e9]
    show (i 0).val / 128 * 128 ≤ (i 0).val ∧ (i 0).val < (i 0).val / 128 * 128 + 128
    omega
  | ⟨1, _⟩ =>
    show win0_6.index ⟨(i 0).val / 128, hlt⟩ (1 : Fin 2) * 1024 ≤ (i 1).val ∧ (i 1).val < win0_6.index ⟨(i 0).val / 128, hlt⟩ (1 : Fin 2) * 1024 + 1024
    rw [e10]
    omega

/-- The output array after the call: the flat head of the arrays the region finds. -/
theorem final (c : Dev nD) : (dats m 0 c).arrAt 6 cfg0.N = flatOf m c :=
  (dats m 0 c).arrAt_eq_of_cover 6 (flatOf m c) (fun t _ => flushed_eq m c t) covered

/-! ## The host line after the call, and the run -/

/-- The program's result: the host line after the call splits the merged axis of the output array. -/
theorem tail_eq (c : Dev nD) :
    (Pipeline.afterTail₀ cfgs (dats m) 0 (V0 m) [hostOps1] c main_v10 : S8192x64x16.Idx → EReal)
      = headAll (V m c main_arg0) (V m c main_arg1) (V m c main_arg3) (V m c main_arg4) (m ((c : Thread nD τ).loc main_arg5)) (V m c main_arg6) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9) = flatOf m c :=
    (Pipeline.withArrays_arr spec0 launch0.win.arr_inj c _ _ 6).trans (final m c)
  show shapeCast S8192x64x16 (Pipeline.withArrays (cfgs 0).spec c (V0 m c) (fun w => (dats m 0 c).arrAt w (cfgs 0).N) (Proc.devRef .tc main_v9))
    shapeCasts_S8192x1024_S8192x64x16 = _
  rw [hw]
  exact reshape_headFlat _ _ _ _ _ _ _

/-- Every weakly fair execution of the program ends with its result at the head of every batch row of the arguments
    as launched, and the arguments unchanged. -/
theorem run : θ_run defs (onTc (τ := τ) (main (F := Ideal))) ⟨m, fun _ => 0, ρ⟩ fun r => ∀ c : Dev nD,
      r.2.mem ((c.tc : Thread nD τ).loc main_v10)
        = headAll (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v10 (Pipeline.mem_restRefs_of main_v10 (by decide) (by decide))).trans (tail_eq m c)).trans (by
        rw [V_main_arg0, V_main_arg1, V_main_arg3, V_main_arg4, V_main_arg6]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c)))⟩)
    (run_main m ρ)

end Cert.KernelIdeal.Whole

end
-- ==== Proof.lean ====
/-
  The kernel and the reference compute the same function: for every batch row, two rounds of mean message passing
  among the row's 64 agents (tanh of a weighted input; the mean of the OTHER 63 agents' states; a gated tanh update
  with a skip connection) and one linear head shared by the agents.

  The reference does this on whole arrays and divides the sum of the others by 63. The kernel walks the batch in blocks
  of 128 rows; it multiplies by a constant named 1/63, which on the extended reals is the same as dividing by 63; and
  it computes the head of agents i and i + 32 in ONE product, laying the two agents' states side by side and
  multiplying by the 256 × 32 matrix that holds the head's weights twice on its diagonal and zeros elsewhere. The
  zeros meet only products that are then zero, so each half of the result is the plain product with the weights.
  Narrowing the operands' float format is the identity on extended reals. No step needs the inputs to be finite.
-/
import proofs.«413553_j87660282512012_3_alg».proof.Defs
import proofs.«413553_j87660282512012_3_alg».proof.Proof.Gen.Kernel
import proofs.«413553_j87660282512012_3_alg».proof.Proof.Gen.Kernel.Skeleton
import proofs.«413553_j87660282512012_3_alg».proof.Proof.Gen.Kernel.Launch
import proofs.«413553_j87660282512012_3_alg».proof.Proof.Gen.Kernel.Points
import proofs.«413553_j87660282512012_3_alg».proof.Proof.Gen.Kernel.Frame
import proofs.«413553_j87660282512012_3_alg».proof.Proof.Gen.KernelIdeal
import proofs.«413553_j87660282512012_3_alg».proof.Proof.Gen.KernelIdeal.Skeleton
import proofs.«413553_j87660282512012_3_alg».proof.Proof.Gen.KernelIdeal.Launch
import proofs.«413553_j87660282512012_3_alg».proof.Proof.Gen.KernelIdeal.Points
import proofs.«413553_j87660282512012_3_alg».proof.Proof.Gen.KernelIdeal.Frame
import proofs.«413553_j87660282512012_3_alg».proof.Proof.Gen.ReferenceIdeal
import proofs.«413553_j87660282512012_3_alg».proof.Proof.Gen.Pre_finite_inputs
import proofs.«413553_j87660282512012_3_alg».proof.Proof.Gen.ReferenceIdeal.Run
import proofs.«413553_j87660282512012_3_alg».proof.Proof.Gen.ReferenceIdeal.Read
import proofs.«413553_j87660282512012_3_alg».proof.Proof.RefHead
import proofs.«413553_j87660282512012_3_alg».proof.Proof.Whole
import Idealize.ShloMosaic.Adequacy
import Idealize.ShloMosaic.Init

noncomputable section

namespace Cert.Proof

open Idealize.ShloMosaic Idealize.SL.Sem Idealize.ShloMosaic.ValueIdx

/-- The reference's result is the head of every batch row of its arguments. -/
theorem reference_all (x0 : Cert.ReferenceIdeal.S8192x64x128.Idx → EReal) (x1 x3 x4 : Cert.ReferenceIdeal.S128.Idx → EReal)
    (x5 : Cert.ReferenceIdeal.S128x16.Idx → EReal) (x6 : Cert.ReferenceIdeal.S16.Idx → EReal) :
    Cert.ReferenceIdeal.Read.val_main_v22 (F := Ideal) x0 x1 x3 x4 x5 x6 = Cert.KernelIdeal.Whole.headAll x0 x1 x3 x4 x5 x6 := by
  funext i
  obtain ⟨b, n, o, rfl⟩ : ∃ (b : Fin 8192) (n : Fin 64) (o : Fin 16), i = ix3 b n o := ⟨i 0, i 1, i 2, eq_ix3 i⟩
  exact Cert.ReferenceIdeal.RefHead.ref_head x0 x1 x3 x4 x5 x6 b n o

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the constant 0.0158730168 is named 1/63, its value in the table. -/
theorem preserves : Cert.preserves_Kernel_KernelIdeal :=
  IdealRules.named_const.statement Cert.KernelIdeal.κ "inv_63" .f32 0x3C820821#32 ((1 / 63 : ℝ) : EReal) rfl

/-- Both programs end with their result at the head of every batch row of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6⟩ := hagree c
  rw [h0, h1, h3, h4, h5, h6]
  exact (Cert.ReferenceIdeal.Read.val_main_v22_eq _ _ _ _ _ _).trans (reference_all _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
